-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x8192 : Shape := ⟨3, ![2, 4096, 8192]⟩
abbrev S8192x4 : Shape := ⟨2, ![8192, 4]⟩
abbrev S4x8192 : Shape := ⟨2, ![4, 8192]⟩
abbrev S_ : Shape := ⟨0, ![]⟩

class Facts : Prop where
  bcast_S_S2x4096x8192 : S_.BroadcastsInDim S2x4096x8192 (![] : Fin 0 → Fin S2x4096x8192.rank)
  reducesTo_S2x4096x8192_S_d0_1_2 : S2x4096x8192.ReducesTo [0, 1, 2] S_
  h_S_ : 0 < S_.numel
  bcast_S_S8192x4 : S_.BroadcastsInDim S8192x4 (![] : Fin 0 → Fin S8192x4.rank)
  reducesTo_S8192x4_S_d0_1 : S8192x4.ReducesTo [0, 1] S_
  bcast_S_S4x8192 : S_.BroadcastsInDim S4x8192 (![] : Fin 0 → Fin S4x8192.rank)
  reducesTo_S4x8192_S_d0_1 : S4x8192.ReducesTo [0, 1] S_

variable [Facts]

def fn_part1 {F : FTy → Type} [FloatOps F] (main_arg4 : FVec F S4x8192 .f32) (main_v13 : IVec S_ 1) (main_v16 : IVec S8192x4 1) : IVec S_ 1 :=
  let main_c_5 : IVec S_ 1 := constantI S_ 1 1#1
  let main_v17 : IVec S_ 1 := (fun x v => Host.reduce IntOp.andi x v reducesTo_S8192x4_S_d0_1 h_S_) main_v16 main_c_5
  let main_v18 : IVec S_ 1 := andi main_v13 main_v17
  let main_v19 : FVec F S4x8192 .f32 := Host.absf main_arg4
  let main_cst_6 : FVec F S_ .f32 := constant S_ .f32 0x7F800000#32
  let main_v20 : FVec F S4x8192 .f32 := broadcastInDim S4x8192 ![] bcast_S_S4x8192 main_cst_6
  let main_v21 : IVec S4x8192 1 := cmpf .olt main_v19 main_v20
  let main_c_7 : IVec S_ 1 := constantI S_ 1 1#1
  let main_v22 : IVec S_ 1 := (fun x v => Host.reduce IntOp.andi x v reducesTo_S4x8192_S_d0_1 h_S_) main_v21 main_c_7
  let main_v23 : IVec S_ 1 := andi main_v18 main_v22
  main_v23

def fn {F : FTy → Type} [FloatOps F] (main_arg0 : FVec F S2x4096x8192 .f32) (main_arg1 : FVec F S8192x4 .f32) (main_arg2 : FVec F S4x8192 .f32) (main_arg3 : FVec F S8192x4 .f32) (main_arg4 : FVec F S4x8192 .f32) : IVec S_ 1 :=
  let main_v0 : FVec F S2x4096x8192 .f32 := Host.absf main_arg0
  let main_cst : FVec F S_ .f32 := constant S_ .f32 0x7F800000#32
  let main_v1 : FVec F S2x4096x8192 .f32 := broadcastInDim S2x4096x8192 ![] bcast_S_S2x4096x8192 main_cst
  let main_v2 : IVec S2x4096x8192 1 := cmpf .olt main_v0 main_v1
  let main_c : IVec S_ 1 := constantI S_ 1 1#1
  let main_v3 : IVec S_ 1 := (fun x v => Host.reduce IntOp.andi x v reducesTo_S2x4096x8192_S_d0_1_2 h_S_) main_v2 main_c
  let main_v4 : FVec F S8192x4 .f32 := Host.absf main_arg1
  let main_cst_0 : FVec F S_ .f32 := constant S_ .f32 0x7F800000#32
  let main_v5 : FVec F S8192x4 .f32 := broadcastInDim S8192x4 ![] bcast_S_S8192x4 main_cst_0
  let main_v6 : IVec S8192x4 1 := cmpf .olt main_v4 main_v5
  let main_c_1 : IVec S_ 1 := constantI S_ 1 1#1
  let main_v7 : IVec S_ 1 := (fun x v => Host.reduce IntOp.andi x v reducesTo_S8192x4_S_d0_1 h_S_) main_v6 main_c_1
  let main_v8 : IVec S_ 1 := andi main_v3 main_v7
  let main_v9 : FVec F S4x8192 .f32 := Host.absf main_arg2
  let main_cst_2 : FVec F S_ .f32 := constant S_ .f32 0x7F800000#32
  let main_v10 : FVec F S4x8192 .f32 := broadcastInDim S4x8192 ![] bcast_S_S4x8192 main_cst_2
  let main_v11 : IVec S4x8192 1 := cmpf .olt main_v9 main_v10
  let main_c_3 : IVec S_ 1 := constantI S_ 1 1#1
  let main_v12 : IVec S_ 1 := (fun x v => Host.reduce IntOp.andi x v reducesTo_S4x8192_S_d0_1 h_S_) main_v11 main_c_3
  let main_v13 : IVec S_ 1 := andi main_v8 main_v12
  let main_v14 : FVec F S8192x4 .f32 := Host.absf main_arg3
  let main_cst_4 : FVec F S_ .f32 := constant S_ .f32 0x7F800000#32
  let main_v15 : FVec F S8192x4 .f32 := broadcastInDim S8192x4 ![] bcast_S_S8192x4 main_cst_4
  let main_v16 : IVec S8192x4 1 := cmpf .olt main_v14 main_v15
  fn_part1 (F := F) main_arg4 main_v13 main_v16
-- ==== Kernel.lean ====
abbrev S2x4096x8192 : Shape := ⟨3, ![2, 4096, 8192]⟩
abbrev S8192x4 : Shape := ⟨2, ![8192, 4]⟩
abbrev S4x8192 : Shape := ⟨2, ![4, 8192]⟩
abbrev S8192x8192 : Shape := ⟨2, ![8192, 8192]⟩
abbrev S256x8192 : Shape := ⟨2, ![256, 8192]⟩
abbrev S8192 : Shape := ⟨1, ![8192]⟩
abbrev S1x8192 : Shape := ⟨2, ![1, 8192]⟩
abbrev S256 : Shape := ⟨1, ![256]⟩
abbrev S256x1 : Shape := ⟨2, ![256, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x4096x8192, .f32⟩
  | .hbm, ⟨1, _⟩ => ⟨S8192x4, .f32⟩
  | .hbm, ⟨2, _⟩ => ⟨S4x8192, .f32⟩
  | .hbm, ⟨3, _⟩ => ⟨S8192x4, .f32⟩
  | .hbm, ⟨4, _⟩ => ⟨S4x8192, .f32⟩
  | .hbm, ⟨5, _⟩ => ⟨S8192x8192, .f32⟩
  | .hbm, ⟨6, _⟩ => ⟨S4x8192, .f32⟩
  | .hbm, ⟨7, _⟩ => ⟨S4x8192, .f32⟩
  | .hbm, ⟨8, _⟩ => ⟨S8192x8192, .f32⟩
  | .hbm, ⟨9, _⟩ => ⟨S2x4096x8192, .f32⟩
  | .local _ .vmem, ⟨0, _⟩ => ⟨S256x8192, .f32⟩
  | .local _ .vmem, ⟨1, _⟩ => ⟨S256x8192, .f32⟩
  | .local _ .vmem, ⟨2, _⟩ => ⟨S4x8192, .f32⟩
  | .local _ .vmem, ⟨3, _⟩ => ⟨S4x8192, .f32⟩
  | .local _ .vmem, ⟨4, _⟩ => ⟨S4x8192, .f32⟩
  | .local _ .vmem, ⟨5, _⟩ => ⟨S4x8192, .f32⟩
  | .local _ .vmem, ⟨6, _⟩ => ⟨S256x8192, .f32⟩
  | .local _ .vmem, ⟨7, _⟩ => ⟨S256x8192, .f32⟩
  | _, _ => ⟨S2x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2x4096x8192_S8192x8192 : S2x4096x8192.ShapeCasts S8192x8192
  transposes_S8192x4_S4x8192_1_0 : S8192x4.Transposes [1, 0] S4x8192
  inb_S4x8192_S4x8192_0_0 : ∀ a, (![0, 0] : Fin 2 → Nat) a + S4x8192.size a ≤ S4x8192.size a
  h_S4x8192 : 0 < S4x8192.numel
  shapeCasts_S4x8192_S4x8192 : S4x8192.ShapeCasts S4x8192
  reduces_S4x8192_S8192 : S4x8192.Reduces [0] S8192
  shapeCasts_S8192_S1x8192 : S8192.ShapeCasts S1x8192
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  reduces_S256x8192_S256 : S256x8192.Reduces [1] S256
  shapeCasts_S256_S256x1 : S256.ShapeCasts S256x1
  broadcasts_S256x1_S256x8192 : S256x1.Broadcasts S256x8192
  broadcasts_S1x8192_S256x8192 : S1x8192.Broadcasts S256x8192
  shapeCasts_S8192x8192_S2x4096x8192 : S8192x8192.ShapeCasts S2x4096x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x8192.size a ≤ S4x8192.size a
  hwx0_1 : ∀ i : grid0.Coords, EltTy.bits .f32 = 32 ∨ (Rect.block (s := S4x8192) S4x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x8192.size a ≤ S4x8192.size a
  hwx0_2 : ∀ i : grid0.Coords, EltTy.bits .f32 = 32 ∨ (Rect.block (s := S4x8192) S4x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x8192.size a ≤ S4x8192.size a
  hwx0_3 : ∀ i : grid0.Coords, EltTy.bits .f32 = 32 ∨ (Rect.block (s := S4x8192) S4x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x8192.size a ≤ S4x8192.size a
  hwx0_4 : ∀ i : grid0.Coords, EltTy.bits .f32 = 32 ∨ (Rect.block (s := S4x8192) S4x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x8192.size a ≤ S8192x8192.size a
  hwx0_5 : ∀ i : grid0.Coords, EltTy.bits .f32 = 32 ∨ (Rect.block (s := S8192x8192) S256x8192.size (cc0_transform_5 i) (hinb0_5 i)).WholeWords (EltTy.packing .f32)

variable [Facts₀]

abbrev win0_0 : Pipeline.Window sig grid0 :=
  Pipeline.Window.ofSpec (Memref.whole main_v0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x8192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x4096x8192 : Shape := ⟨3, ![2, 4096, 8192]⟩
abbrev S8192x4 : Shape := ⟨2, ![8192, 4]⟩
abbrev S4x8192 : Shape := ⟨2, ![4, 8192]⟩
abbrev S_ : Shape := ⟨0, ![]⟩
abbrev S8192 : Shape := ⟨1, ![8192]⟩
abbrev S2x4096 : Shape := ⟨2, ![2, 4096]⟩
abbrev S2x4096x1 : Shape := ⟨3, ![2, 4096, 1]⟩
abbrev S1x1x8192 : Shape := ⟨3, ![1, 1, 8192]⟩

abbrev nBuf : Space → Nat
  | .hbm => 48
  | .vmem => 0
  | .smem => 0
  | _ => 0

abbrev bufTy : (tb : Table) → Fin (tcTables nBuf tb) → BufTy
  | .hbm, ⟨0, _⟩ => ⟨S2x4096x8192, .f32⟩
  | .hbm, ⟨1, _⟩ => ⟨S8192x4, .f32⟩
  | .hbm, ⟨2, _⟩ => ⟨S4x8192, .f32⟩
  | .hbm, ⟨3, _⟩ => ⟨S8192x4, .f32⟩
  | .hbm, ⟨4, _⟩ => ⟨S4x8192, .f32⟩
  | .hbm, ⟨5, _⟩ => ⟨S8192x4, .f32⟩
  | .hbm, ⟨6, _⟩ => ⟨S8192x4, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192x4, .f32⟩
  | .hbm, ⟨13, _⟩ => ⟨S8192x4, .f32⟩
  | .hbm, ⟨14, _⟩ => ⟨S_, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x8192, .f32⟩
  | .hbm, ⟨26, _⟩ => ⟨S2x4096x8192, .f32⟩
  | .hbm, ⟨27, _⟩ => ⟨S2x4096x8192, .f32⟩
  | .hbm, ⟨28, _⟩ => ⟨S_, .f32⟩
  | .hbm, ⟨29, _⟩ => ⟨S2x4096, .f32⟩
  | .hbm, ⟨30, _⟩ => ⟨S2x4096x1, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S2x4096x8192, .f32⟩
  | .hbm, ⟨35, _⟩ => ⟨S2x4096x8192, .f32⟩
  | .hbm, ⟨36, _⟩ => ⟨S_, .f32⟩
  | .hbm, ⟨37, _⟩ => ⟨S2x4096x1, .f32⟩
  | .hbm, ⟨38, _⟩ => ⟨S2x4096x1, .f32⟩
  | .hbm, ⟨39, _⟩ => ⟨S2x4096x1, .f32⟩
  | .hbm, ⟨40, _⟩ => ⟨S2x4096x8192, .f32⟩
  | .hbm, ⟨41, _⟩ => ⟨S2x4096x8192, .f32⟩
  | .hbm, ⟨42, _⟩ => ⟨S1x1x8192, .f32⟩
  | .hbm, ⟨43, _⟩ => ⟨S2x4096x8192, .f32⟩
  | .hbm, ⟨44, _⟩ => ⟨S2x4096x8192, .f32⟩
  | .hbm, ⟨45, _⟩ => ⟨S1x1x8192, .f32⟩
  | .hbm, ⟨46, _⟩ => ⟨S2x4096x8192, .f32⟩
  | .hbm, ⟨47, _⟩ => ⟨S2x4096x8192, .f32⟩
  | _, _ => ⟨S2x4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  transposes_S4x8192_S8192x4_1_0 : S4x8192.Transposes [1, 0] S8192x4
  reducesTo_S8192x4_S8192_d1 : S8192x4.ReducesTo [1] S8192
  h_S_ : 0 < S_.numel
  bcast_S_S8192 : S_.BroadcastsInDim S8192 (![] : Fin 0 → Fin S8192.rank)
  reducesTo_S2x4096x8192_S2x4096_d2 : S2x4096x8192.ReducesTo [2] S2x4096
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x8192_0_1_2 : S2x4096x1.BroadcastsInDim S2x4096x8192 (![0, 1, 2] : Fin 3 → Fin S2x4096x8192.rank)
  bcast_S8192_S1x1x8192_2 : S8192.BroadcastsInDim S1x1x8192 (![2] : Fin 1 → Fin S1x1x8192.rank)
  bcast_S1x1x8192_S2x4096x8192_0_1_2 : S1x1x8192.BroadcastsInDim S2x4096x8192 (![0, 1, 2] : Fin 3 → Fin S2x4096x8192.rank)

variable [Facts₀]

class Facts : Prop extends Facts₀ where

variable [Facts]
-- ==== Proof.RowMoments.lean ====
/-
  Two ways to the variance of a finite row of reals, and the constant that counts the row.

  For a row x_0 … x_{n-1} of REAL numbers with mean μ = (Σ x_j) / n,
      (Σ x_j²) / n − μ²  =  (Σ (x_j − μ)²) / n,
  because Σ (x_j − μ)² = Σ x_j² − 2 μ Σ x_j + n μ² and Σ x_j = n μ. The identity is an identity of
  real numbers: on the extended reals it needs every x_j finite (with an infinite entry the two sides
  are different junk values), which is where the certificate's precondition is used. The quotient by
  the count is the extended-real quotient by the literal 8192.0, which for a nonzero real divisor is
  the product with its reciprocal.
-/
import Idealize.ShloMosaic.PureOps.Ideal
import Idealize.ShloMosaic.PureOps.Ideal.Laws

noncomputable section

namespace Cert.LoraNorm

open Idealize.ShloMosaic

/-- The pattern of `8192.0` denotes the real number 8192. -/
theorem ofBits_8192 : Ideal.ofBits .f32 0x46000000#32 = ((8192 : ℝ) : EReal) := by
  simp [Ideal.ofBits, Ideal.ieee, -EReal.coe_mul]; norm_num

/-- A finite sum of reals, read in the extended reals, is the sum of the readings. -/
theorem coe_sum {ι : Type*} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The variance identity over the reals: mean of squares minus squared mean is the mean of squared
    deviations, for a row of `n` entries divided by `N = n`. -/
theorem var_real {n : ℕ} (f : Fin n → ℝ) (N : ℝ) (hN : N ≠ 0) (hn : (n : ℝ) = N) :
    (∑ j, f j * f j) * (1 / N) - ((∑ j, f j) * (1 / N)) * ((∑ j, f j) * (1 / N))
      = (∑ j, (f j - (∑ j, f j) * (1 / N)) * (f j - (∑ j, f j) * (1 / N))) * (1 / N) := by
  have hdev : ∀ μ : ℝ, ∑ j, (f j - μ) * (f j - μ)
      = (∑ j, f j * f j) - 2 * μ * (∑ j, f j) + (n : ℝ) * (μ * μ) := by
    intro μ
    have h : ∀ j, (f j - μ) * (f j - μ) = f j * f j - 2 * μ * f j + μ * μ := fun j => by ring
    simp only [h, Finset.sum_add_distrib, Finset.sum_sub_distrib, ← Finset.mul_sum, Finset.sum_const,
      Finset.card_univ, Fintype.card_fin, nsmul_eq_mul]
    ring
  rw [hdev, hn]
  field_simp
  ring

/-- The same on the extended reals, for a row of 8192 FINITE entries and the quotient by the literal
    `8192.0`: the kernel's variance (left) is the reference's (right). -/
theorem var_ereal (x : Fin 8192 → EReal) (hx : ∀ j, ∃ r : ℝ, x j = (r : EReal)) :
    Ideal.div (∑ j, x j * x j) (Ideal.ofBits .f32 0x46000000#32)
        - Ideal.div (∑ j, x j) (Ideal.ofBits .f32 0x46000000#32) * Ideal.div (∑ j, x j) (Ideal.ofBits .f32 0x46000000#32)
      = Ideal.div (∑ j, (x j - Ideal.div (∑ j, x j) (Ideal.ofBits .f32 0x46000000#32))
            * (x j - Ideal.div (∑ j, x j) (Ideal.ofBits .f32 0x46000000#32))) (Ideal.ofBits .f32 0x46000000#32) := by
  choose f hf using hx
  obtain rfl : x = fun j => (f j : EReal) := funext hf
  rw [ofBits_8192]
  simp only [Ideal.div_coe (by norm_num : (8192 : ℝ) ≠ 0)]
  simp only [← coe_sum, ← EReal.coe_mul, ← EReal.coe_sub]
  exact congrArg _ (var_real f 8192 (by norm_num) (by norm_num))

end Cert.LoraNorm

end
-- ==== Proof.Spec.lean ====
/-
  What both programs compute, as one function of the argument arrays.

  For a row x_0 … x_8191 with mean μ = (Σ x_k) / 8192, the normalised entry is
      (x_j − μ) · rsqrt (var + ε),
  where the reference takes var = (Σ (x_k − μ)²) / 8192 (`normDev`) and the kernel takes
  var = (Σ x_k²) / 8192 − μ·μ (`normMom`). The two agree on a row of finite entries (RowMoments).
  The affine part is per column j: scale_j = (Σ_{r<4} A[j,r] · B[r,j]) · 2, the diagonal of the
  rank-4 product A·B times alpha/rank = 2, and shift_j likewise from the second pair of factors.
  The result at (b, s, j) is  norm(row (b,s)) j · scale_j + shift_j.
-/
import Idealize.ShloMosaic.Lib.ValueIdx
import proofs.«109704_g72842645340230_feedfinal_400_5_alg».proof.Proof.RowMoments

noncomputable section

namespace Cert.LoraNorm

open Idealize.ShloMosaic Idealize.ShloMosaic.ValueIdx

/-- The mean of a row of 8192 entries: its sum over the literal `8192.0`. -/
def rowMean (row : Fin 8192 → EReal) : EReal :=
  Ideal.div (∑ k, row k) (Ideal.ofBits .f32 0x46000000#32)

/-- The normalised entry with the variance as the mean of squared deviations. -/
def normDev (row : Fin 8192 → EReal) (j : Fin 8192) : EReal :=
  (row j - rowMean row)
    * Ideal.rsqrt (Ideal.div (∑ k, (row k - rowMean row) * (row k - rowMean row)) (Ideal.ofBits .f32 0x46000000#32)
        + Ideal.ofBits .f32 0x3727C5AC#32)

/-- The normalised entry with the variance as mean of squares minus squared mean. -/
def normMom (row : Fin 8192 → EReal) (j : Fin 8192) : EReal :=
  (row j - rowMean row)
    * Ideal.rsqrt ((Ideal.div (∑ k, row k * row k) (Ideal.ofBits .f32 0x46000000#32) - rowMean row * rowMean row)
        + Ideal.ofBits .f32 0x3727C5AC#32)

/-- On a row of finite entries the two variances are one number, so the two normalised entries agree. -/
theorem normMom_eq_normDev (row : Fin 8192 → EReal) (h : ∀ k, ∃ r : ℝ, row k = (r : EReal)) (j : Fin 8192) :
    normMom row j = normDev row j := by
  unfold normMom normDev rowMean
  rw [var_ereal row h]

/-- Column `j` of the affine part: the diagonal entry of the rank-4 product, times the literal `2.0`. -/
def diag2 (a : (⟨2, ![8192, 4]⟩ : Shape).Idx → EReal) (b : (⟨2, ![4, 8192]⟩ : Shape).Idx → EReal) (j : Fin 8192) : EReal :=
  (∑ k : Fin 4, a (ix2 j k) * b (ix2 k j)) * Ideal.ofBits .f32 0x40000000#32

/-- The result at (b, s, j), the variance taken the reference's way. -/
def outDev (x : (⟨3, ![2, 4096, 8192]⟩ : Shape).Idx → EReal)
    (a1 : (⟨2, ![8192, 4]⟩ : Shape).Idx → EReal) (b1 : (⟨2, ![4, 8192]⟩ : Shape).Idx → EReal)
    (a3 : (⟨2, ![8192, 4]⟩ : Shape).Idx → EReal) (b3 : (⟨2, ![4, 8192]⟩ : Shape).Idx → EReal)
    (b : Fin 2) (s : Fin 4096) (j : Fin 8192) : EReal :=
  normDev (fun k => x (ix3 b s k)) j * diag2 a1 b1 j + diag2 a3 b3 j

/-- The result at (b, s, j), the variance taken the kernel's way. -/
def outMom (x : (⟨3, ![2, 4096, 8192]⟩ : Shape).Idx → EReal)
    (a1 : (⟨2, ![8192, 4]⟩ : Shape).Idx → EReal) (b1 : (⟨2, ![4, 8192]⟩ : Shape).Idx → EReal)
    (a3 : (⟨2, ![8192, 4]⟩ : Shape).Idx → EReal) (b3 : (⟨2, ![4, 8192]⟩ : Shape).Idx → EReal)
    (b : Fin 2) (s : Fin 4096) (j : Fin 8192) : EReal :=
  normMom (fun k => x (ix3 b s k)) j * diag2 a1 b1 j + diag2 a3 b3 j

/-- With every entry of `x` finite the two are one number. -/
theorem outMom_eq_outDev (x : (⟨3, ![2, 4096, 8192]⟩ : Shape).Idx → EReal) (hx : ∀ i, ∃ r : ℝ, x i = (r : EReal))
    (a1 : (⟨2, ![8192, 4]⟩ : Shape).Idx → EReal) (b1 : (⟨2, ![4, 8192]⟩ : Shape).Idx → EReal)
    (a3 : (⟨2, ![8192, 4]⟩ : Shape).Idx → EReal) (b3 : (⟨2, ![4, 8192]⟩ : Shape).Idx → EReal)
    (b : Fin 2) (s : Fin 4096) (j : Fin 8192) :
    outMom x a1 b1 a3 b3 b s j = outDev x a1 b1 a3 b3 b s j := by
  unfold outMom outDev
  rw [normMom_eq_normDev (fun k => x (ix3 b s k)) (fun k => hx (ix3 b s k))]

/-- The result array, the variance taken the reference's way. -/
def G (x : (⟨3, ![2, 4096, 8192]⟩ : Shape).Idx → EReal)
    (a1 : (⟨2, ![8192, 4]⟩ : Shape).Idx → EReal) (b1 : (⟨2, ![4, 8192]⟩ : Shape).Idx → EReal)
    (a3 : (⟨2, ![8192, 4]⟩ : Shape).Idx → EReal) (b3 : (⟨2, ![4, 8192]⟩ : Shape).Idx → EReal) :
    (⟨3, ![2, 4096, 8192]⟩ : Shape).Idx → EReal :=
  fun i => outDev x a1 b1 a3 b3 (i 0) (i 1) (i 2)

/-- The result array, the variance taken the kernel's way. -/
def Gmom (x : (⟨3, ![2, 4096, 8192]⟩ : Shape).Idx → EReal)
    (a1 : (⟨2, ![8192, 4]⟩ : Shape).Idx → EReal) (b1 : (⟨2, ![4, 8192]⟩ : Shape).Idx → EReal)
    (a3 : (⟨2, ![8192, 4]⟩ : Shape).Idx → EReal) (b3 : (⟨2, ![4, 8192]⟩ : Shape).Idx → EReal) :
    (⟨3, ![2, 4096, 8192]⟩ : Shape).Idx → EReal :=
  fun i => outMom x a1 b1 a3 b3 (i 0) (i 1) (i 2)

/-- With every entry of `x` finite the two are one array. -/
theorem Gmom_eq_G (x : (⟨3, ![2, 4096, 8192]⟩ : Shape).Idx → EReal) (hx : ∀ i, ∃ r : ℝ, x i = (r : EReal))
    (a1 : (⟨2, ![8192, 4]⟩ : Shape).Idx → EReal) (b1 : (⟨2, ![4, 8192]⟩ : Shape).Idx → EReal)
    (a3 : (⟨2, ![8192, 4]⟩ : Shape).Idx → EReal) (b3 : (⟨2, ![4, 8192]⟩ : Shape).Idx → EReal) :
    Gmom x a1 b1 a3 b3 = G x a1 b1 a3 b3 :=
  funext fun i => outMom_eq_outDev x hx a1 b1 a3 b3 (i 0) (i 1) (i 2)

end Cert.LoraNorm

end
-- ==== Proof.Finite.lean ====
/-
  What the precondition says of the first argument: every entry is a real number.

  The precondition is the conjunction, over the five float arguments, of "every |entry| is below +∞".
  Its first conjunct, read at one entry x of the first argument, says max x (−x) < +∞ on the extended
  reals, which excludes both infinities: x is a real.
-/
import proofs.«109704_g72842645340230_feedfinal_400_5_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.LoraNorm.Finite

open Idealize.ShloMosaic Cert.Pre_finite_inputs

/-- The scalar shape has one index. -/
instance : Subsingleton S_.Idx := ⟨fun a b => funext fun d => d.elim0⟩

/-- The pattern of `+inf` denotes the top of the extended reals. -/
theorem ofBits_inf : Ideal.ofBits .f32 0x7F800000#32 = ⊤ := by
  simp [Ideal.ofBits, Ideal.ieee]

/-- A one-bit word made from a Boolean is 1 exactly when the Boolean is true. -/
theorem ofBool_one {b : Bool} : BitVec.ofBool b = 1#1 ↔ b = true := by cases b <;> decide

/-- An extended real whose absolute value is below +∞ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- Under the precondition every entry of the first argument is a real number. -/
theorem arg0_real [Facts] (a0 : FVec Ideal S2x4096x8192 .f32) (a1 : FVec Ideal S8192x4 .f32) (a2 : FVec Ideal S4x8192 .f32)
    (a3 : FVec Ideal S8192x4 .f32) (a4 : FVec Ideal S4x8192 .f32)
    (h : fn (F := Ideal) a0 a1 a2 a3 a4 = fun _ => 1#1) (i : S2x4096x8192.Idx) : ∃ r : ℝ, a0 i = (r : EReal) := by
  have h0 := congrFun h ValueIdx.ix0
  unfold fn fn_part1 at h0
  dsimp only at h0
  have h3 := (IntOp.andi_eq_one.1 (IntOp.andi_eq_one.1 (IntOp.andi_eq_one.1 (IntOp.andi_eq_one.1 h0).1).1).1).1
  have e := Host.reduce_andi_all _ _ _ _ _ h3 i
  have e' : Ideal.cmp .olt (max (a0 i) (-(a0 i))) (Ideal.ofBits .f32 0x7F800000#32) = 1#1 := e
  rw [ofBits_inf] at e'
  refine real_of_abs_lt_top _ ?_
  unfold Ideal.cmp at e'
  exact of_decide_eq_true (ofBool_one.1 e')

end Cert.LoraNorm.Finite

end
-- ==== Proof.RefValue.lean ====
/-
  The reference's result, read index by index, is `G` of the argument arrays.

  At (b, s, j) the reference's last stage is a sum of a product and a broadcast column value; reading
  each stage at an index walks back to the arguments: the two row sums run over (b, s, k), k < 8192
  (the mean's and, inside the variance, the mean's again at every (b, s, k)), the two rank-4 sums over
  A[j, r] · Bᵀ[j, r] = A[j, r] · B[r, j], r < 4. The host sums start from the literal zero, which is 0.
-/
import proofs.«109704_g72842645340230_feedfinal_400_5_alg».proof.Proof.Gen.ReferenceIdeal.Run
import proofs.«109704_g72842645340230_feedfinal_400_5_alg».proof.Proof.Gen.ReferenceIdeal.Read
import proofs.«109704_g72842645340230_feedfinal_400_5_alg».proof.Proof.Spec

noncomputable section

namespace Cert.ReferenceIdeal.RefValue

open Cert.ReferenceIdeal Cert.ReferenceIdeal.Read Idealize.ShloMosaic Idealize.ShloMosaic.ValueIdx Cert.LoraNorm

/-- The mean's row sum at (b, s, ·) runs over (b, s, k). -/
theorem mean_idx (b : Fin 2) (s : Fin 4096) (j k : Fin 8192) :
    idx_main_v10 (idx_main_v11 (idx_main_v21 (ix3 b s j))) k = ix3 b s k :=
  funext fun a => Fin.ext (by match a with | ⟨0, _⟩ => rfl | ⟨1, _⟩ => rfl | ⟨2, _⟩ => rfl)

/-- The variance's row sum at (b, s, ·) runs over (b, s, k). -/
theorem var_idx (b : Fin 2) (s : Fin 4096) (j k : Fin 8192) :
    idx_main_v17 (idx_main_v18 (idx_main_v26 (ix3 b s j))) k = ix3 b s k :=
  funext fun a => Fin.ext (by match a with | ⟨0, _⟩ => rfl | ⟨1, _⟩ => rfl | ⟨2, _⟩ => rfl)

/-- Inside the variance, the mean subtracted at (b, s, k) is again the row's: its sum runs over (b, s, k'). -/
theorem dev_idx (b : Fin 2) (s : Fin 4096) (k k' : Fin 8192) :
    idx_main_v10 (idx_main_v11 (idx_main_v14 (ix3 b s k))) k' = ix3 b s k' :=
  funext fun a => Fin.ext (by match a with | ⟨0, _⟩ => rfl | ⟨1, _⟩ => rfl | ⟨2, _⟩ => rfl)

/-- The scale's sum at column j runs over (j, r). -/
theorem scale_idx (b : Fin 2) (s : Fin 4096) (j : Fin 8192) (r : Fin 4) :
    idx_main_v2 (idx_main_v28 (idx_main_v29 (ix3 b s j))) r = ix2 j r :=
  funext fun a => Fin.ext (by match a with | ⟨0, _⟩ => rfl | ⟨1, _⟩ => rfl)

/-- The shift's sum at column j runs over (j, r). -/
theorem shift_idx (b : Fin 2) (s : Fin 4096) (j : Fin 8192) (r : Fin 4) :
    idx_main_v7 (idx_main_v31 (idx_main_v32 (ix3 b s j))) r = ix2 j r :=
  funext fun a => Fin.ext (by match a with | ⟨0, _⟩ => rfl | ⟨1, _⟩ => rfl)

/-- The transposed factor at (j, r) is the factor at (r, j). -/
theorem tr_idx0 (j : Fin 8192) (r : Fin 4) : idx_main_v0 (ix2 j r) = ix2 r j :=
  funext fun a => Fin.ext (by match a with | ⟨0, _⟩ => rfl | ⟨1, _⟩ => rfl)
theorem tr_idx5 (j : Fin 8192) (r : Fin 4) : idx_main_v5 (ix2 j r) = ix2 r j :=
  funext fun a => Fin.ext (by match a with | ⟨0, _⟩ => rfl | ⟨1, _⟩ => rfl)

/-- The reference's result stage is `G`. -/
theorem result_eq (x0 : (⟨S2x4096x8192, .f32⟩ : BufTy).Contents (Elt Ideal)) (x1 : (⟨S8192x4, .f32⟩ : BufTy).Contents (Elt Ideal))
    (x2 : (⟨S4x8192, .f32⟩ : BufTy).Contents (Elt Ideal)) (x3 : (⟨S8192x4, .f32⟩ : BufTy).Contents (Elt Ideal))
    (x4 : (⟨S4x8192, .f32⟩ : BufTy).Contents (Elt Ideal)) :
    val_main_v33 (F := Ideal) x0 x1 x2 x3 x4 = G x0 x1 x2 x3 x4 := by
  funext i
  obtain ⟨b, s, j, rfl⟩ : ∃ (b : Fin 2) (s : Fin 4096) (j : Fin 8192), i = ix3 b s j := ⟨i 0, i 1, i 2, eq_ix3 i⟩
  simp only [val_main_v33_apply, val_main_v30_apply, val_main_v32_apply, val_main_v27_apply, val_main_v29_apply, val_main_v22_apply, val_main_v26_apply, val_main_v21_apply, val_main_v13_apply, val_main_v11_apply, val_main_v10_apply, val_main_v12_apply, val_main_cst_4_apply, val_main_cst_3_apply, val_main_v25_apply, val_main_v24_apply, val_main_v20_apply, val_main_v23_apply, val_main_cst_7_apply, val_main_v18_apply, val_main_v19_apply, val_main_cst_6_apply, val_main_v17_apply, val_main_cst_5_apply, val_main_v16_apply, val_main_v15_apply, val_main_v14_apply, val_main_v28_apply, val_main_v4_apply, val_main_v2_apply, val_main_v3_apply, val_main_cst_0_apply, val_main_cst_apply, val_main_v1_apply, val_main_v0_apply, val_main_v31_apply, val_main_v9_apply, val_main_v7_apply, val_main_v8_apply, val_main_cst_2_apply, val_main_cst_1_apply, val_main_v6_apply, val_main_v5_apply]
  simp only [mean_idx, var_idx, dev_idx, scale_idx, shift_idx, tr_idx0, tr_idx5,
    Ideal.addf_def, Ideal.subf_def, Ideal.mulf_def, Ideal.hostDivf_def, Ideal.hostUnary_rsqrt_def, Ideal.ofBits_def,
    Ideal.ofBits_zero_f32, zero_add]
  rfl

end Cert.ReferenceIdeal.RefValue

end
-- ==== Proof.LibColumns.lean ====
/-
  Layout operations read at an index: the column forms of a kept reduced axis, and a reshape that
  merges or splits the two leading axes.

  A row reduction with the reduced axis kept lowers to a cast of `[a]` to `[a, 1]` followed by a
  broadcast of `[a, 1]` to `[a, b]`: at (p, c) both read row p. A reshape of `[a, b, c]` to
  `[n, c]` (n = a·b) keeps the row-major position, so row r = p·b + q of the flat array is row (p, q)
  of the cube, column by column, and the reshape back reads the same way.
-/
import Idealize.ShloMosaic.Lib.ValueIdx
import Idealize.ShloMosaic.Lib.Pipeline.Value

noncomputable section

namespace Cert.LibColumns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- An `[a, b, c]` array reshaped to `[n, c]` reads, at `(r, j)` with `r = p·b + q`, the operand at `(p, q, j)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (j : Fin c) (r : Fin n)
    (hr : r.val = p.val * b + q.val) : shapeCast ⟨2, ![n, c]⟩ x h (ix2 r j) = x (ix3 p q j) :=
  shapeCast_apply x h _ _ (by
    rw [Shape.rowMajor_val_three, Shape.rowMajor_val_two]
    show (p.val * b + q.val) * c + j.val = r.val * c + j.val
    rw [hr])

/-- An `[n, c]` array reshaped to `[a, b, c]` reads, at `(p, q, j)`, the operand at `(r, j)` with `r = p·b + q`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (j : Fin c) (r : Fin n)
    (hr : r.val = p.val * b + q.val) : shapeCast ⟨3, ![a, b, c]⟩ x h (ix3 p q j) = x (ix2 r j) :=
  shapeCast_apply x h _ _ (by
    rw [Shape.rowMajor_val_three, Shape.rowMajor_val_two]
    show r.val * c + j.val = (p.val * b + q.val) * c + j.val
    rw [hr])

end Cert.LibColumns

end
-- ==== Proof.KerPayload.lean ====
/-
  The kernel body's stored value at (p, q) of its 256 × 8192 block.

  The body forms, from the two pairs of 4 × 8192 factor blocks, the row vectors
  scale_q = (Σ_{r<4} sa[r,q] · sb[r,q]) · 2 and shift_q likewise; from the 256 × 8192 block of rows,
  per row p the mean μ_p = (Σ_k x[p,k]) / 8192 and rstd_p = rsqrt ((Σ_k x[p,k]²) / 8192 − μ_p² + ε);
  and stores ((x[p,q] − μ_p) · rstd_p) · scale_q + shift_q. Each lane sum is read as the finite sum over
  the reduced coordinate; the kept reduced axis is a cast to a column and a broadcast of that column.
-/
import proofs.«109704_g72842645340230_feedfinal_400_5_alg».proof.Proof.Gen.KernelIdeal.Skeleton
import proofs.«109704_g72842645340230_feedfinal_400_5_alg».proof.Proof.Spec
import proofs.«109704_g72842645340230_feedfinal_400_5_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.TcCoe Idealize.ShloMosaic.ValueIdx
open Cert.LoraNorm Cert.LibColumns

/-- A lane sum down the 4 rows of a 4 × 8192 vector, at column q. -/
theorem colSum_apply (src : FVec Ideal S4x8192 .f32) (h : S4x8192.Reduces [0] S8192) (hφ : FKind.Formats .f32)
    (hacc : (0x00000000#32 : BitVec 32) = FKind.add.neutral .f32 hφ) (q : Fin 8192) :
    multiReduction .add [0] S8192 src 0x00000000#32 h hφ hacc (ix1 q) = ∑ r : Fin 4, src (ix2 r q) :=
  (Ideal.multiReduction_add_single src 0x00000000#32 h hφ hacc (ix1 q)).trans
    (Finset.sum_congr rfl fun r _ => congrArg src (funext fun a => Fin.ext (by
      match a with | ⟨0, _⟩ => rfl | ⟨1, _⟩ => rfl)))

/-- A lane sum along a row of a 256 × 8192 vector, at row p. -/
theorem rowSum_apply (src : FVec Ideal S256x8192 .f32) (h : S256x8192.Reduces [1] S256) (hφ : FKind.Formats .f32)
    (hacc : (0x00000000#32 : BitVec 32) = FKind.add.neutral .f32 hφ) (p : Fin 256) :
    multiReduction .add [1] S256 src 0x00000000#32 h hφ hacc (ix1 p) = ∑ k : Fin 8192, src (ix2 p k) :=
  (Ideal.multiReduction_add_single src 0x00000000#32 h hφ hacc (ix1 p)).trans
    (Finset.sum_congr rfl fun k _ => congrArg src (funext fun a => Fin.ext (by
      match a with | ⟨0, _⟩ => rfl | ⟨1, _⟩ => rfl)))

/-- The affine row vector of the first pair of factor blocks, at column q. -/
theorem scale_apply (v0 v2 : FVec Ideal S4x8192 .f32) (u : Fin 1) (q : Fin 8192) :
    k0_pay2 (F := Ideal) v0 v2 (ix2 u q) = (∑ r : Fin 4, v0 (ix2 r q) * v2 (ix2 r q)) * Ideal.ofBits .f32 0x40000000#32 := by
  unfold k0_pay2
  dsimp only
  show shapeCast S1x8192 (multiReduction .add [0] S8192 (mulf (shapeCast S4x8192 v0 shapeCasts_S4x8192_S4x8192) v2) 0x00000000#32
      reduces_S4x8192_S8192 _ _) shapeCasts_S8192_S1x8192 (ix2 u q) * Ideal.ofBits .f32 0x40000000#32 = _
  refine congrArg (· * Ideal.ofBits .f32 0x40000000#32) ?_
  refine (shapeCast_a_1a_apply _ shapeCasts_S8192_S1x8192 u q).trans ?_
  refine (colSum_apply _ reduces_S4x8192_S8192 _ _ q).trans ?_
  rw [shapeCast_self]
  rfl

/-- The affine row vector of the second pair of factor blocks, at column q. -/
theorem shift_apply (v8 v10 : FVec Ideal S4x8192 .f32) (u : Fin 1) (q : Fin 8192) :
    k0_pay3 (F := Ideal) v8 v10 (ix2 u q) = (∑ r : Fin 4, v8 (ix2 r q) * v10 (ix2 r q)) * Ideal.ofBits .f32 0x40000000#32 := by
  unfold k0_pay3
  dsimp only
  show shapeCast S1x8192 (multiReduction .add [0] S8192 (mulf (shapeCast S4x8192 v8 shapeCasts_S4x8192_S4x8192) v10) 0x00000000#32
      reduces_S4x8192_S8192 _ _) shapeCasts_S8192_S1x8192 (ix2 u q) * Ideal.ofBits .f32 0x40000000#32 = _
  refine congrArg (· * Ideal.ofBits .f32 0x40000000#32) ?_
  refine (shapeCast_a_1a_apply _ shapeCasts_S8192_S1x8192 u q).trans ?_
  refine (colSum_apply _ reduces_S4x8192_S8192 _ _ q).trans ?_
  rw [shapeCast_self]
  rfl

/-- The reciprocal square root of a vector, read at an index. -/
theorem rsqrt_apply {s : Shape} (v : FVec Ideal s .f32) (i : s.Idx) : rsqrt v i = Ideal.rsqrt (v i) := rfl

/-- A kept row sum over the literal `8192.0`, as a column: at (p, ·) the row's sum divided. -/
theorem rowMeanCol_apply (src : FVec Ideal S256x8192 .f32) (hφ : FKind.Formats .f32)
    (hacc : (0x00000000#32 : BitVec 32) = FKind.add.neutral .f32 hφ) (p : Fin 256) (u : Fin 1) :
    divf (shapeCast S256x1 (multiReduction .add [1] S256 src 0x00000000#32 reduces_S256x8192_S256 hφ hacc) shapeCasts_S256_S256x1)
        (broadcast S256x1 (FloatOps.ofBits (F := Ideal) .f32 0x46000000#32)) (ix2 p u)
      = Ideal.div (∑ k : Fin 8192, src (ix2 p k)) (Ideal.ofBits .f32 0x46000000#32) := by
  show Ideal.div (shapeCast S256x1 (multiReduction .add [1] S256 src 0x00000000#32 reduces_S256x8192_S256 hφ hacc) shapeCasts_S256_S256x1 (ix2 p u))
      (Ideal.ofBits .f32 0x46000000#32) = _
  refine congrArg (Ideal.div · (Ideal.ofBits .f32 0x46000000#32)) ?_
  refine (shapeCast_a_a1_apply _ shapeCasts_S256_S256x1 p u).trans ?_
  exact rowSum_apply src reduces_S256x8192_S256 hφ hacc p

/-- The normalised block entry at (p, q): the statistics taken from `v16`, the entry from `v32` (the body loads the
    block twice). -/
theorem norm_apply (v16 v32 : FVec Ideal S256x8192 .f32) (p : Fin 256) (q : Fin 8192) :
    k0_pay4 (F := Ideal) v16 v32 (ix2 p q)
      = (v32 (ix2 p q) - Ideal.div (∑ k : Fin 8192, v16 (ix2 p k)) (Ideal.ofBits .f32 0x46000000#32))
          * Ideal.rsqrt ((Ideal.div (∑ k : Fin 8192, v16 (ix2 p k) * v16 (ix2 p k)) (Ideal.ofBits .f32 0x46000000#32)
              - Ideal.div (∑ k : Fin 8192, v16 (ix2 p k)) (Ideal.ofBits .f32 0x46000000#32)
                * Ideal.div (∑ k : Fin 8192, v16 (ix2 p k)) (Ideal.ofBits .f32 0x46000000#32))
            + Ideal.ofBits .f32 0x3727C5AC#32) := by
  unfold k0_pay4
  dsimp only
  simp only [shapeCast_self]
  show (v32 (ix2 p q) - broadcastTo S256x8192 _ broadcasts_S256x1_S256x8192 (ix2 p q))
      * broadcastTo S256x8192 _ broadcasts_S256x1_S256x8192 (ix2 p q) = _
  rw [broadcastTo_a1_ab_apply, broadcastTo_a1_ab_apply]
  simp only [rsqrt_apply, addf_apply, subf_apply, mulf_apply, broadcast_apply]
  exact congrArg₂ (fun M Q : EReal => (v32 (ix2 p q) - M) * Ideal.rsqrt ((Q - M * M) + Ideal.ofBits .f32 0x3727C5AC#32))
    (rowMeanCol_apply v16 _ _ p 0) (rowMeanCol_apply (mulf v16 v16) _ _ p 0)

/-- The body's stored value at (p, q), from the blocks it loads: the row block `x0` (loaded twice) and the four
    factor blocks. -/
theorem store_apply (x0 : FVec Ideal S256x8192 .f32) (x1 x2 x3 x4 : FVec Ideal S4x8192 .f32) (p : Fin 256) (q : Fin 8192) :
    k0_pay1 (F := Ideal) (k0_pay2 x1 x2) (k0_pay3 x3 x4) (k0_pay4 x0 x0) (ix2 p q)
      = normMom (fun k => x0 (ix2 p k)) q
          * ((∑ r : Fin 4, x1 (ix2 r q) * x2 (ix2 r q)) * Ideal.ofBits .f32 0x40000000#32)
        + (∑ r : Fin 4, x3 (ix2 r q) * x4 (ix2 r q)) * Ideal.ofBits .f32 0x40000000#32 := by
  unfold k0_pay1
  show k0_pay4 (F := Ideal) x0 x0 (ix2 p q) * broadcastTo S256x8192 (k0_pay2 (F := Ideal) x1 x2) broadcasts_S1x8192_S256x8192 (ix2 p q)
      + broadcastTo S256x8192 (k0_pay3 (F := Ideal) x3 x4) broadcasts_S1x8192_S256x8192 (ix2 p q) = _
  rw [broadcastTo_1b_ab_apply, broadcastTo_1b_ab_apply, scale_apply, shift_apply, norm_apply]
  rfl

end Cert.KernelIdeal.Payload

end
-- ==== Proof.KerBlocks.lean ====
/-
  From the grid's blocks to the kernel's whole output array.

  Grid point t (of 32) is handed rows 256·t … 256·t + 255 of the 8192 × 8192 row array and the four
  4 × 8192 factor arrays whole, and writes back the same rows of the output. So the output array ends
  holding, at (r, q), the normalised entry of row r (statistics over that row of the row array) times
  scale_q plus shift_q: one function of the five arrays the region finds, and the 32 blocks tile it.
-/
import proofs.«109704_g72842645340230_feedfinal_400_5_alg».proof.Proof.Gen.KernelIdeal.Frame
import proofs.«109704_g72842645340230_feedfinal_400_5_alg».proof.Proof.KerPayload
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.LoraNorm Cert.KernelIdeal.Payload

/-- The output at row r, column q, from the row array and the four factor arrays. -/
def rowsAt (X : S8192x8192.Idx → EReal) (sa sb ha hb : S4x8192.Idx → EReal) (r q : Fin 8192) : EReal :=
  normMom (fun k => X (ix2 r k)) q
      * ((∑ u : Fin 4, sa (ix2 u q) * sb (ix2 u q)) * Ideal.ofBits .f32 0x40000000#32)
    + (∑ u : Fin 4, ha (ix2 u q) * hb (ix2 u q)) * Ideal.ofBits .f32 0x40000000#32

/-- The whole output array. -/
def rows (X : S8192x8192.Idx → EReal) (sa sb ha hb : S4x8192.Idx → EReal) : S8192x8192.Idx → EReal :=
  fun i => rowsAt X sa sb ha hb ⟨(i 0).val, (i 0).isLt⟩ ⟨(i 1).val, (i 1).isLt⟩

/-- The body's stored value at block index `y` is the output array's value at array index `i`, when the row block's
    row (y 0) is the row array's row (i 0), the factor blocks are the factor arrays, and the columns agree. -/
theorem store_rows (x0 : FVec Ideal S256x8192 .f32) (x1 x2 x3 x4 : FVec Ideal S4x8192 .f32)
    (X : S8192x8192.Idx → EReal) (sa sb ha hb : S4x8192.Idx → EReal) (y : S256x8192.Idx) (i : S8192x8192.Idx)
    (h0 : ∀ k : Fin 8192, x0 (ix2 (⟨(y 0).val, (y 0).isLt⟩ : Fin 256) k) = X (ix2 (⟨(i 0).val, (i 0).isLt⟩ : Fin 8192) k))
    (h1 : x1 = sa) (h2 : x2 = sb) (h3 : x3 = ha) (h4 : x4 = hb) (hq : (i 1).val = (y 1).val) :
    k0_pay1 (F := Ideal) (k0_pay2 x1 x2) (k0_pay3 x3 x4) (k0_pay4 x0 x0) y = rows X sa sb ha hb i := by
  subst h1 h2 h3 h4
  obtain ⟨p, q, rfl⟩ : ∃ (p : Fin 256) (q : Fin 8192), y = ix2 p q := ⟨y 0, y 1, eq_ix2 y⟩
  obtain ⟨r, q', rfl⟩ : ∃ (r : Fin 8192) (q' : Fin 8192), i = ix2 r q' := ⟨i 0, i 1, eq_ix2 i⟩
  obtain rfl : q' = q := Fin.ext hq
  have h0' : (fun k : Fin 8192 => x0 (ix2 p k)) = fun k => X (ix2 r k) := funext h0
  rw [store_apply, h0']
  rfl

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 32 grid points: the row window and the output window are at block
    (t, 0); the four factor windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A factor window's block is its whole array. -/
theorem blk1 (c : Dev nD) (t : Fin cfg0.N) : (iblk m c 1 t : FVec Ideal S4x8192 .f32) = (V m c main_v1 : S4x8192.Idx → EReal) := by
  obtain ⟨-, -, e0, e1, -⟩ := idx_facts t
  funext y
  unfold iblk
  rw [View.read_apply]
  show V m c main_v1 _ = V m c main_v1 y
  congr 1
  funext a
  apply Fin.ext
  match a with
  | ⟨0, _⟩ => show win0_1.index t (0 : Fin 2) * 4 + 1 * (y 0).val = (y 0).val; rw [e0]; omega
  | ⟨1, _⟩ => show win0_1.index t (1 : Fin 2) * 8192 + 1 * (y 1).val = (y 1).val; rw [e1]; omega
theorem blk2 (c : Dev nD) (t : Fin cfg0.N) : (iblk m c 2 t : FVec Ideal S4x8192 .f32) = (V m c main_arg2 : S4x8192.Idx → EReal) := by
  obtain ⟨-, -, -, -, e0, e1, -⟩ := idx_facts t
  funext y
  unfold iblk
  rw [View.read_apply]
  show V m c main_arg2 _ = V m c main_arg2 y
  congr 1
  funext a
  apply Fin.ext
  match a with
  | ⟨0, _⟩ => show win0_2.index t (0 : Fin 2) * 4 + 1 * (y 0).val = (y 0).val; rw [e0]; omega
  | ⟨1, _⟩ => show win0_2.index t (1 : Fin 2) * 8192 + 1 * (y 1).val = (y 1).val; rw [e1]; omega
theorem blk3 (c : Dev nD) (t : Fin cfg0.N) : (iblk m c 3 t : FVec Ideal S4x8192 .f32) = (V m c main_v2 : S4x8192.Idx → EReal) := by
  obtain ⟨-, -, -, -, -, -, e0, e1, -⟩ := idx_facts t
  funext y
  unfold iblk
  rw [View.read_apply]
  show V m c main_v2 _ = V m c main_v2 y
  congr 1
  funext a
  apply Fin.ext
  match a with
  | ⟨0, _⟩ => show win0_3.index t (0 : Fin 2) * 4 + 1 * (y 0).val = (y 0).val; rw [e0]; omega
  | ⟨1, _⟩ => show win0_3.index t (1 : Fin 2) * 8192 + 1 * (y 1).val = (y 1).val; rw [e1]; omega
theorem blk4 (c : Dev nD) (t : Fin cfg0.N) : (iblk m c 4 t : FVec Ideal S4x8192 .f32) = (V m c main_arg4 : S4x8192.Idx → EReal) := by
  obtain ⟨-, -, -, -, -, -, -, -, e0, e1, -⟩ := idx_facts t
  funext y
  unfold iblk
  rw [View.read_apply]
  show V m c main_arg4 _ = V m c main_arg4 y
  congr 1
  funext a
  apply Fin.ext
  match a with
  | ⟨0, _⟩ => show win0_4.index t (0 : Fin 2) * 4 + 1 * (y 0).val = (y 0).val; rw [e0]; omega
  | ⟨1, _⟩ => show win0_4.index t (1 : Fin 2) * 8192 + 1 * (y 1).val = (y 1).val; rw [e1]; omega

/-- The row window's block at point t, row p, is row 256·t + p of the row array. -/
theorem blk0 (c : Dev nD) (t : Fin cfg0.N) (p : Fin 256) (k : Fin 8192) (r : Fin 8192) (hr : r.val = t.val * 256 + p.val) :
    (iblk m c 0 t : FVec Ideal S256x8192 .f32) (ix2 p k) = (V m c main_v0 : S8192x8192.Idx → EReal) (ix2 r k) := by
  obtain ⟨e0, e1, -⟩ := idx_facts t
  unfold iblk
  rw [View.read_apply]
  show V m c main_v0 _ = V m c main_v0 (ix2 r k)
  congr 1
  funext a
  apply Fin.ext
  match a with
  | ⟨0, _⟩ => show win0_0.index t (0 : Fin 2) * 256 + 1 * p.val = r.val; rw [e0, hr]; omega
  | ⟨1, _⟩ => show win0_0.index t (1 : Fin 2) * 8192 + 1 * k.val = k.val; rw [e1]; omega

/-- WHAT POINT t WRITES BACK is block t of the output array `rows` of the arrays as the region finds them. -/
theorem flushed_eq (c : Dev nD) (t : Fin cfg0.N) :
    (dats m 0 c).flushed 5 t = ((cfg0.win 5).blk t).view.read (Elt Ideal)
      (rows (V m c main_v0) (V m c main_v1) (V m c main_arg2) (V m c main_v2) (V m c main_arg4)) := by
  show (cfg0.win 5).cut (grid0.coords t) ((dats m 0 c).after 5 t) = _
  rw [after0_5]
  unfold out0_5
  rw [View.canon_unit_zero hz]
  simp only [View.ld_unit_zero (S := S4x8192) hz, View.ld_unit_zero (S := S256x8192) hz]
  obtain ⟨-, -, -, -, -, -, -, -, -, -, e50, e51⟩ := idx_facts t
  funext j
  rw [View.read_apply]
  refine store_rows (iblk m c 0 t) (iblk m c 1 t) (iblk m c 2 t) (iblk m c 3 t) (iblk m c 4 t)
    (V m c main_v0) (V m c main_v1) (V m c main_arg2) (V m c main_v2) (V m c main_arg4) j (((cfg0.win 5).blk t).view.emb j)
    (fun k => blk0 m c t _ k _ ?_) (blk1 m c t) (blk2 m c t) (blk3 m c t) (blk4 m c t) ?_
  · show win0_5.index t (0 : Fin 2) * 256 + 1 * (j 0).val = t.val * 256 + (j 0).val
    rw [e50]; omega
  · show win0_5.index t (1 : Fin 2) * 8192 + 1 * (j 1).val = (j 1).val
    rw [e51]; omega

/-- An index of the output array is in point t's block iff each coordinate is in the block's range on its axis. -/
theorem mem_blk (t : Fin cfg0.N) (i : S8192x8192.Idx) :
    i ∈ ((cfg0.win 5).blk t).view.set ↔ ∀ a : Fin 2, win0_5.index t a * S256x8192.size a ≤ (i a).val
      ∧ (i a).val < win0_5.index t a * S256x8192.size a + S256x8192.size a := by
  show i ∈ ((View.whole main_v3).slice (win0_5.rect t)).set ↔ _
  rw [View.set_slice_whole, Rect.mem_set_unit]
  exact Iff.rfl

/-- Every index of the output array is in some point's block: row r is in the block of point r / 256. -/
theorem cover (i : S8192x8192.Idx) : ∃ t : Fin cfg0.N, (cfg0.win 5).flush t = true ∧ i ∈ ((cfg0.win 5).blk t).view.set := by
  have hi0 : (i 0).val < 8192 := (i 0).isLt
  have hi1 : (i 1).val < 8192 := (i 1).isLt
  have hN : cfg0.N = 32 := N_0
  let T : Fin cfg0.N := ⟨(i 0).val / 256, by rw [hN]; omega⟩
  have hT : T.val = (i 0).val / 256 := rfl
  obtain ⟨-, -, -, -, -, -, -, -, -, -, e50, e51⟩ := idx_facts T
  refine ⟨T, flush0_5 T, ?_⟩
  rw [mem_blk]
  intro a
  match a with
  | ⟨0, _⟩ =>
    show win0_5.index T (0 : Fin 2) * 256 ≤ (i 0).val ∧ (i 0).val < win0_5.index T (0 : Fin 2) * 256 + 256
    rw [e50, hT]; omega
  | ⟨1, _⟩ =>
    show win0_5.index T (1 : Fin 2) * 8192 ≤ (i 1).val ∧ (i 1).val < win0_5.index T (1 : Fin 2) * 8192 + 8192
    rw [e51]; omega

/-- THE OUTPUT ARRAY after the region: `rows` of the arrays as the region finds them. -/
theorem final (c : Dev nD) : (dats m 0 c).arrAt 5 cfg0.N
    = rows (V m c main_v0) (V m c main_v1) (V m c main_arg2) (V m c main_v2) (V m c main_arg4) :=
  (dats m 0 c).arrAt_eq_of_cover 5 _ (fun t _ => flushed_eq m c t) cover

end Cert.KernelIdeal.Blocks

end
-- ==== Proof.KerRun.lean ====
/-
  The kernel program's run, read as one function of its arguments.

  Before the region the host reshapes x from 2 × 4096 × 8192 to 8192 × 8192 (row 4096·b + s is row (b, s))
  and transposes the two 8192 × 4 factors to 4 × 8192; after it, the host reshapes the region's 8192 × 8192
  output back. So at (b, s, j) the result is the region's output at (4096·b + s, j), whose row statistics
  run over x[b, s, ·] and whose factor sums run over A[j, r] · B[r, j].
-/
import proofs.«109704_g72842645340230_feedfinal_400_5_alg».proof.Proof.Gen.KernelIdeal.Frame
import proofs.«109704_g72842645340230_feedfinal_400_5_alg».proof.Proof.KerBlocks
import Idealize.ShloMosaic.Lib.StableHlo.Run
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.LoraNorm Cert.LibColumns Cert.KernelIdeal.Blocks

/-- The region's output on the reshaped first argument and the transposed factors, reshaped back, is the result
    array `Gmom` of the arguments: row 4096·b + s of the flat array is row (b, s) of the cube, and the transposed
    factor at (r, j) is the factor at (j, r). -/
theorem rows_reshaped (x0 : S2x4096x8192.Idx → EReal) (x1 x3 : S8192x4.Idx → EReal) (x2 x4 : S4x8192.Idx → EReal) :
    shapeCast S2x4096x8192 (rows (shapeCast S8192x8192 x0 shapeCasts_S2x4096x8192_S8192x8192)
        (transpose S4x8192 [1, 0] x1 transposes_S8192x4_S4x8192_1_0) x2
        (transpose S4x8192 [1, 0] x3 transposes_S8192x4_S4x8192_1_0) x4) shapeCasts_S8192x8192_S2x4096x8192
      = Gmom x0 x1 x2 x3 x4 := by
  funext i
  obtain ⟨b, s, j, rfl⟩ : ∃ (b : Fin 2) (s : Fin 4096) (j : Fin 8192), i = ix3 b s j := ⟨i 0, i 1, i 2, eq_ix3 i⟩
  have hb := b.isLt
  have hs := s.isLt
  let r : Fin 8192 := ⟨b.val * 4096 + s.val, by omega⟩
  refine (shapeCast_nc_abc_apply _ shapeCasts_S8192x8192_S2x4096x8192 b s j r rfl).trans ?_
  show rowsAt _ _ _ _ _ r j = outMom x0 x1 x2 x3 x4 b s j
  unfold rowsAt outMom diag2
  have hrow : (fun k : Fin 8192 => shapeCast S8192x8192 x0 shapeCasts_S2x4096x8192_S8192x8192 (ix2 r k))
      = fun k => x0 (ix3 b s k) :=
    funext fun k => shapeCast_abc_nc_apply x0 shapeCasts_S2x4096x8192_S8192x8192 b s k r rfl
  rw [hrow]
  have ht1 : ∀ u : Fin 4, transpose S4x8192 [1, 0] x1 transposes_S8192x4_S4x8192_1_0 (ix2 u j) = x1 (ix2 j u) :=
    fun u => transpose_ix2_apply x1 transposes_S8192x4_S4x8192_1_0 u j
  have ht3 : ∀ u : Fin 4, transpose S4x8192 [1, 0] x3 transposes_S8192x4_S4x8192_1_0 (ix2 u j) = x3 (ix2 j u) :=
    fun u => transpose_ix2_apply x3 transposes_S8192x4_S4x8192_1_0 u j
  simp only [ht1, ht3]

variable (m : (ℓ : Loc nD τ sig) → Buf (Elt Ideal) ℓ) (ρ : Dev nD → PrngReg)

/-- The row array the region finds is the first argument reshaped. -/
theorem V_rowArray (c : Dev nD) : (V m c main_v0 : S8192x8192.Idx → EReal)
    = shapeCast S8192x8192 (m ((c : Thread nD τ).loc main_arg0)) shapeCasts_S2x4096x8192_S8192x8192 := by
  show StableHlo.after hostOps0 (fun b => m (c, b)) (Proc.devRef .tc main_v0) = _
  after_results
  rfl

/-- The first pair's left factor block the region finds is the second argument transposed. -/
theorem V_scaleA (c : Dev nD) : (V m c main_v1 : S4x8192.Idx → EReal)
    = transpose S4x8192 [1, 0] (m ((c : Thread nD τ).loc main_arg1)) transposes_S8192x4_S4x8192_1_0 := by
  show StableHlo.after hostOps0 (fun b => m (c, b)) (Proc.devRef .tc main_v1) = _
  after_results

/-- The second pair's left factor block the region finds is the fourth argument transposed. -/
theorem V_shiftA (c : Dev nD) : (V m c main_v2 : S4x8192.Idx → EReal)
    = transpose S4x8192 [1, 0] (m ((c : Thread nD τ).loc main_arg3)) transposes_S8192x4_S4x8192_1_0 := by
  show StableHlo.after hostOps0 (fun b => m (c, b)) (Proc.devRef .tc main_v2) = _
  after_results

/-- After the host line that follows the region, the result buffer is the region's output array reshaped. -/
theorem tail_eq (c : Dev nD) : Pipeline.afterTail₀ cfgs (dats m) 0 (V0 m) [hostOps1] c main_v4
    = shapeCast S2x4096x8192 ((dats m 0 c).arrAt 5 cfg0.N) shapeCasts_S8192x8192_S2x4096x8192 := by
  unfold Pipeline.afterTail₀
  show StableHlo.after hostOps1 _ (Proc.devRef .tc main_v4) = _
  after_results
  have e := Pipeline.withArrays_arr spec0 launch0.win.arr_inj c (V0 m c) (fun w => (dats m 0 c).arrAt w cfg0.N) 5
  refine (?_ : _ = shapeCast S2x4096x8192 (Pipeline.withArrays spec0 c (V0 m c) (fun w => (dats m 0 c).arrAt w cfg0.N)
      (Proc.devRef .tc (Pipeline.arrRef spec0 5))) shapeCasts_S8192x8192_S2x4096x8192).trans
    (congrArg (fun A : S8192x8192.Idx → EReal => shapeCast S2x4096x8192 A shapeCasts_S8192x8192_S2x4096x8192) e)
  rfl

/-- The result buffer after the whole program, as a function of the arguments: the result array with the variance
    taken as mean of squares minus squared mean. -/
theorem result_mom (c : Dev nD) : Pipeline.afterTail₀ cfgs (dats m) 0 (V0 m) [hostOps1] c main_v4
    = Gmom (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  rw [tail_eq, final, V_rowArray, V_scaleA, V_shiftA, V_main_arg2, V_main_arg4]
  exact rows_reshaped _ _ _ _ _

/-- THE RUN, READ: under finiteness of the first argument, every weakly fair execution of the kernel program
    terminates with the result buffer at `G` of the arguments and the arguments unchanged. -/
theorem run (hfin : ∀ (c : Dev nD) (i : S2x4096x8192.Idx), ∃ r : ℝ,
      (m ((c.tc : Thread nD τ).loc main_arg0) : S2x4096x8192.Idx → EReal) i = (r : EReal)) :
    θ_run defs (onTc (τ := τ) (main (F := Ideal))) ⟨m, fun _ => 0, ρ⟩ fun r => ∀ c : Dev nD,
      r.2.mem ((c.tc : Thread nD τ).loc main_v4)
          = G (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(((h c).2 main_v4 (Pipeline.mem_restRefs_of main_v4 (by decide) (by decide))).trans (result_mom m c)).trans
        (Gmom_eq_G _ (hfin c) _ _ _ _),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Cert.KernelIdeal.Whole

end
-- ==== Proof.lean ====
/-
  A LayerNorm over the last axis (8192) of a 2 × 4096 × 8192 array whose affine part is LoRA-adapted,
  as one fused kernel over 32 row blocks, against its jnp reference: both are, at (b, s, j),

      (x[b,s,j] − μ) · rsqrt (var + ε) · scale_j + shift_j,

  with μ the mean of row (b, s), scale_j = 2 · Σ_{r<4} A[j,r] · B[r,j] the scaled diagonal of the rank-4
  product of the first pair of factors and shift_j likewise of the second pair. The two programs differ in
  layout (the kernel works on the 8192 × 8192 flattening and on transposed factors) and in one formula:
  the reference's variance is the mean of the squared deviations, the kernel's the mean of the squares
  minus the squared mean. On the extended reals those agree exactly when the row's entries are finite,
  which the precondition gives; every other step is an identity of sums and products read index by index.

  The three frames are the generated ones (the reference's is its run with the result dropped); the
  idealization rewrote nothing, so its claim is trivial; the equivalence sets the kernel's run, read as
  the function `G` of the arguments, beside the reference's run, read as the same `G`.
-/
import proofs.«109704_g72842645340230_feedfinal_400_5_alg».proof.Defs
import proofs.«109704_g72842645340230_feedfinal_400_5_alg».proof.Proof.Gen.Kernel
import proofs.«109704_g72842645340230_feedfinal_400_5_alg».proof.Proof.Gen.Kernel.Skeleton
import proofs.«109704_g72842645340230_feedfinal_400_5_alg».proof.Proof.Gen.Kernel.Launch
import proofs.«109704_g72842645340230_feedfinal_400_5_alg».proof.Proof.Gen.Kernel.Points
import proofs.«109704_g72842645340230_feedfinal_400_5_alg».proof.Proof.Gen.Kernel.Frame
import proofs.«109704_g72842645340230_feedfinal_400_5_alg».proof.Proof.Gen.KernelIdeal
import proofs.«109704_g72842645340230_feedfinal_400_5_alg».proof.Proof.Gen.KernelIdeal.Skeleton
import proofs.«109704_g72842645340230_feedfinal_400_5_alg».proof.Proof.Gen.KernelIdeal.Launch
import proofs.«109704_g72842645340230_feedfinal_400_5_alg».proof.Proof.Gen.KernelIdeal.Points
import proofs.«109704_g72842645340230_feedfinal_400_5_alg».proof.Proof.Gen.KernelIdeal.Frame
import proofs.«109704_g72842645340230_feedfinal_400_5_alg».proof.Proof.Gen.ReferenceIdeal
import proofs.«109704_g72842645340230_feedfinal_400_5_alg».proof.Proof.Gen.ReferenceIdeal.Run
import proofs.«109704_g72842645340230_feedfinal_400_5_alg».proof.Proof.Gen.ReferenceIdeal.Read
import proofs.«109704_g72842645340230_feedfinal_400_5_alg».proof.Proof.Gen.Pre_finite_inputs
import proofs.«109704_g72842645340230_feedfinal_400_5_alg».proof.Proof.Spec
import proofs.«109704_g72842645340230_feedfinal_400_5_alg».proof.Proof.Finite
import proofs.«109704_g72842645340230_feedfinal_400_5_alg».proof.Proof.RefValue
import proofs.«109704_g72842645340230_feedfinal_400_5_alg».proof.Proof.KerRun
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result buffer at `G` of the (agreeing) arguments: the kernel's by its run
    read through the blocks, the reshapes and the transposes, with the precondition making the two variances one
    number; the reference's by reading its stages at an index. -/
theorem algebraic : Cert.algebraic_KernelIdeal_ReferenceIdeal := by
  intro m ρ m' ρ' hpre hagree
  have hfin : ∀ (c : Dev Cert.KernelIdeal.nD) (i : Cert.KernelIdeal.S2x4096x8192.Idx), ∃ r : ℝ,
      (m ((c.tc : Thread Cert.KernelIdeal.nD Cert.KernelIdeal.τ).loc Cert.KernelIdeal.main_arg0)
        : Cert.KernelIdeal.S2x4096x8192.Idx → EReal) i = (r : EReal) :=
    fun c i => Cert.LoraNorm.Finite.arg0_real _ _ _ _ _ (hpre c) i
  refine ⟨_, Cert.KernelIdeal.Whole.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
